-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_784" .f32 0x3AA72F05#32 ((1 / 784 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x28x28 : Shape := ⟨4, ![128, 512, 28, 28]⟩
abbrev S128 : Shape := ⟨1, ![128]⟩
abbrev S1000x512 : Shape := ⟨2, ![1000, 512]⟩
abbrev S1000 : Shape := ⟨1, ![1000]⟩
abbrev S_ : Shape := ⟨0, ![]⟩

class Facts : Prop where
  bcast_S_S128x512x28x28 : S_.BroadcastsInDim S128x512x28x28 (![] : Fin 0 → Fin S128x512x28x28.rank)
  reducesTo_S128x512x28x28_S_d0_1_2_3 : S128x512x28x28.ReducesTo [0, 1, 2, 3] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S128x512x28x28 .f32) (main_arg1 : IVec S128 32) (main_arg2 : FVec F S1000x512 .f32) (main_arg3 : FVec F S1000 .f32) : IVec S_ 1 :=
  let main_v0 : FVec F S128x512x28x28 .f32 := Host.absf main_arg0
  let main_cst : FVec F S_ .f32 := constant S_ .f32 0x7F800000#32
  let main_v1 : FVec F S128x512x28x28 .f32 := broadcastInDim S128x512x28x28 ![] bcast_S_S128x512x28x28 main_cst
  let main_v2 : IVec S128x512x28x28 1 := cmpf .olt main_v0 main_v1
  let main_c : IVec S_ 1 := constantI S_ 1 1#1
  let main_v3 : IVec S_ 1 := (fun x v => Host.reduce IntOp.andi x v reducesTo_S128x512x28x28_S_d0_1_2_3 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000 .f32 := Host.absf main_arg3
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S128x512x28x28 : Shape := ⟨4, ![128, 512, 28, 28]⟩
abbrev S128 : Shape := ⟨1, ![128]⟩
abbrev S1000x512 : Shape := ⟨2, ![1000, 512]⟩
abbrev S1000 : Shape := ⟨1, ![1000]⟩
abbrev S128x512x784 : Shape := ⟨3, ![128, 512, 784]⟩
abbrev S_ : Shape := ⟨0, ![]⟩
abbrev S128x1 : Shape := ⟨2, ![128, 1]⟩
abbrev S128x512 : Shape := ⟨2, ![128, 512]⟩
abbrev S128x512x1 : Shape := ⟨3, ![128, 512, 1]⟩
abbrev S4x512x784 : Shape := ⟨3, ![4, 512, 784]⟩
abbrev S4x512x1 : Shape := ⟨3, ![4, 512, 1]⟩
abbrev S4x512 : Shape := ⟨2, ![4, 512]⟩
abbrev S4x1 : Shape := ⟨2, ![4, 1]⟩
abbrev S4x1x1 : Shape := ⟨3, ![4, 1, 1]⟩
abbrev S512x1000 : Shape := ⟨2, ![512, 1000]⟩
abbrev S128x1000 : Shape := ⟨2, ![128, 1000]⟩
abbrev S1x1000 : Shape := ⟨2, ![1, 1000]⟩

abbrev nBuf : Space → Nat
  | .hbm => 24
  | .vmem => 8
  | .smem => 0
  | _ => 0

abbrev bufTy : (tb : Table) → Fin (tcTables nBuf tb) → BufTy
  | .hbm, ⟨0, _⟩ => ⟨S128x512x28x28, .f32⟩
  | .hbm, ⟨1, _⟩ => ⟨S128, .i32⟩
  | .hbm, ⟨2, _⟩ => ⟨S1000x512, .f32⟩
  | .hbm, ⟨3, _⟩ => ⟨S1000, .f32⟩
  | .hbm, ⟨4, _⟩ => ⟨S128x512x784, .f32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S128x1, .i32⟩
  | .hbm, ⟨13, _⟩ => ⟨S128x512, .f32⟩
  | .hbm, ⟨14, _⟩ => ⟨S128x512x1, .f32⟩
  | .hbm, ⟨15, _⟩ => ⟨S128x512x784, .f32⟩
  | .hbm, ⟨16, _⟩ => ⟨S128x512x1, .f32⟩
  | .hbm, ⟨17, _⟩ => ⟨S128x512, .f32⟩
  | .hbm, ⟨18, _⟩ => ⟨S128x512x28x28, .f32⟩
  | .hbm, ⟨19, _⟩ => ⟨S512x1000, .f32⟩
  | .hbm, ⟨20, _⟩ => ⟨S128x1000, .f32⟩
  | .hbm, ⟨21, _⟩ => ⟨S1x1000, .f32⟩
  | .hbm, ⟨22, _⟩ => ⟨S128x1000, .f32⟩
  | .hbm, ⟨23, _⟩ => ⟨S128x1000, .f32⟩
  | .local _ .vmem, ⟨0, _⟩ => ⟨S4x512x784, .f32⟩
  | .local _ .vmem, ⟨1, _⟩ => ⟨S4x512x784, .f32⟩
  | .local _ .vmem, ⟨2, _⟩ => ⟨S4x512x1, .f32⟩
  | .local _ .vmem, ⟨3, _⟩ => ⟨S4x512x1, .f32⟩
  | .local _ .vmem, ⟨4, _⟩ => ⟨S4x512x784, .f32⟩
  | .local _ .vmem, ⟨5, _⟩ => ⟨S4x512x784, .f32⟩
  | .local _ .vmem, ⟨6, _⟩ => ⟨S4x512x1, .f32⟩
  | .local _ .vmem, ⟨7, _⟩ => ⟨S4x512x1, .f32⟩
  | _, _ => ⟨S128x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x512x28x28_S128x512x784 : S128x512x28x28.ShapeCasts S128x512x784
  bcast_S_S128 : S_.BroadcastsInDim S128 (![] : Fin 0 → Fin S128.rank)
  bcast_S128_S128x1_0 : S128.BroadcastsInDim S128x1 (![0] : Fin 1 → Fin S128x1.rank)
  shapeCasts_S128x512_S128x512x1 : S128x512.ShapeCasts S128x512x1
  inb_S4x512x784_S4x512x784_0_0_0 : ∀ a, (![0, 0, 0] : Fin 3 → Nat) a + S4x512x784.size a ≤ S4x512x784.size a
  h_S4x512x784 : 0 < S4x512x784.numel
  shapeCasts_S4x512x784_S4x512x784 : S4x512x784.ShapeCasts S4x512x784
  reduces_S4x512x784_S4x512 : S4x512x784.Reduces [2] S4x512
  shapeCasts_S4x512_S4x512x1 : S4x512.ShapeCasts S4x512x1
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  reduces_S4x512x1_S4x1 : S4x512x1.Reduces [1] S4x1
  shapeCasts_S4x1_S4x1x1 : S4x1.ShapeCasts S4x1x1
  broadcasts_S4x1x1_S4x512x1 : S4x1x1.Broadcasts S4x512x1
  broadcasts_S4x512x1_S4x512x784 : S4x512x1.Broadcasts S4x512x784
  shapeCasts_S128x512x1_S128x512 : S128x512x1.ShapeCasts S128x512
  shapeCasts_S128x512x784_S128x512x28x28 : S128x512x784.ShapeCasts S128x512x28x28
  transposes_S1000x512_S512x1000_1_0 : S1000x512.Transposes [1, 0] S512x1000
  bcast_S1000_S1x1000_1 : S1000.BroadcastsInDim S1x1000 (![1] : Fin 1 → Fin S1x1000.rank)
  bcast_S1x1000_S128x1000_0_1 : S1x1000.BroadcastsInDim S128x1000 (![0, 1] : Fin 2 → Fin S128x1000.rank)
  gather_S1000x512_S128x1_S128x512_1_0_n_n_0_1_1512_wf : GatherDims.WF S1000x512 S128x1 S128x512 [1] [0] [] [0] [] 1 ![1, 512]
  dot_S128x512_S512x1000_S128x1000_1_0_0_1_n_n_wf : DotDims.WF S128x512 S512x1000 S128x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x784.size a ≤ S128x512x784.size a
  hwx0_0 : ∀ i : grid0.Coords, EltTy.bits .f32 = 32 ∨ (Rect.block (s := S128x512x784) S4x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1.size a ≤ S128x512x1.size a
  hwx0_1 : ∀ i : grid0.Coords, EltTy.bits .f32 = 32 ∨ (Rect.block (s := S128x512x1) S4x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x784.size a ≤ S128x512x784.size a
  hwx0_2 : ∀ i : grid0.Coords, EltTy.bits .f32 = 32 ∨ (Rect.block (s := S128x512x784) S4x512x784.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x1.size a ≤ S128x512x1.size a
  hwx0_3 : ∀ i : grid0.Coords, EltTy.bits .f32 = 32 ∨ (Rect.block (s := S128x512x1) S4x512x1.size (cc0_transform_3 i) (hinb0_3 i)).WholeWords (EltTy.packing .f32)

variable [Facts₀]

def gather_S1000x512_S128x1_S128x512_1_0_n_n_0_1_1512 : GatherDims S1000x512 S128x1 S128x512 where
  offsetDims := [1]
  collapsedSliceDims := [0]
  operandBatchingDims := []
  startIndicesBatchingDims := []
  startIndexMap := [0]
  indexVectorDim := 1
  sliceSizes := ![1, 512]
  wf := gather_S1000x512_S128x1_S128x512_1_0_n_n_0_1_1512_wf
def dot_S128x512_S512x1000_S128x1000_1_0_0_1_n_n : DotDims S128x512 S512x1000 S128x1000 where
  lhsContracting := [1]
  rhsContracting := [0]
  lhsNonContracting := [0]
  rhsNonContracting := [1]
  lhsBatch := []
  rhsBatch := []
  wf := dot_S128x512_S512x1000_S128x1000_1_0_0_1_n_n_wf

abbrev win0_0 : Pipeline.Window sig grid0 :=
  Pipeline.Window.ofSpec (Memref.whole main_v0) S4x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S4x512x784.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S4x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512x28x28 : Shape := ⟨4, ![128, 512, 28, 28]⟩
abbrev S128 : Shape := ⟨1, ![128]⟩
abbrev S1000x512 : Shape := ⟨2, ![1000, 512]⟩
abbrev S1000 : Shape := ⟨1, ![1000]⟩
abbrev S_ : Shape := ⟨0, ![]⟩
abbrev S128x512 : Shape := ⟨2, ![128, 512]⟩
abbrev S512x1000 : Shape := ⟨2, ![512, 1000]⟩
abbrev S128x1000 : Shape := ⟨2, ![128, 1000]⟩
abbrev S1x1000 : Shape := ⟨2, ![1, 1000]⟩
abbrev S128x1 : Shape := ⟨2, ![128, 1]⟩
abbrev S128x512x1x1 : Shape := ⟨4, ![128, 512, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S128x512x28x28, .f32⟩
  | .hbm, ⟨1, _⟩ => ⟨S128, .i32⟩
  | .hbm, ⟨2, _⟩ => ⟨S1000x512, .f32⟩
  | .hbm, ⟨3, _⟩ => ⟨S1000, .f32⟩
  | .hbm, ⟨4, _⟩ => ⟨S_, .f32⟩
  | .hbm, ⟨5, _⟩ => ⟨S128x512, .f32⟩
  | .hbm, ⟨6, _⟩ => ⟨S_, .f32⟩
  | .hbm, ⟨7, _⟩ => ⟨S128x512, .f32⟩
  | .hbm, ⟨8, _⟩ => ⟨S128x512, .f32⟩
  | .hbm, ⟨9, _⟩ => ⟨S512x1000, .f32⟩
  | .hbm, ⟨10, _⟩ => ⟨S128x1000, .f32⟩
  | .hbm, ⟨11, _⟩ => ⟨S1x1000, .f32⟩
  | .hbm, ⟨12, _⟩ => ⟨S128x1000, .f32⟩
  | .hbm, ⟨13, _⟩ => ⟨S128x1000, .f32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S128x1, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128x1, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S128x512, .f32⟩
  | .hbm, ⟨50, _⟩ => ⟨S128x512, .f32⟩
  | .hbm, ⟨51, _⟩ => ⟨S128x512x1x1, .f32⟩
  | .hbm, ⟨52, _⟩ => ⟨S128x512x28x28, .f32⟩
  | .hbm, ⟨53, _⟩ => ⟨S128x512x28x28, .f32⟩
  | _, _ => ⟨S128x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  reducesTo_S128x512x28x28_S128x512_d2_3 : S128x512x28x28.ReducesTo [2, 3] S128x512
  h_S_ : 0 < S_.numel
  bcast_S_S128x512 : S_.BroadcastsInDim S128x512 (![] : Fin 0 → Fin S128x512.rank)
  transposes_S1000x512_S512x1000_1_0 : S1000x512.Transposes [1, 0] S512x1000
  bcast_S1000_S1x1000_1 : S1000.BroadcastsInDim S1x1000 (![1] : Fin 1 → Fin S1x1000.rank)
  bcast_S1x1000_S128x1000_0_1 : S1x1000.BroadcastsInDim S128x1000 (![0, 1] : Fin 2 → Fin S128x1000.rank)
  bcast_S_S128 : S_.BroadcastsInDim S128 (![] : Fin 0 → Fin S128.rank)
  bcast_S128_S128x1_0 : S128.BroadcastsInDim S128x1 (![0] : Fin 1 → Fin S128x1.rank)
  reducesTo_S128x512_S128_d1 : S128x512.ReducesTo [1] S128
  bcast_S128x1_S128x512_0_1 : S128x1.BroadcastsInDim S128x512 (![0, 1] : Fin 2 → Fin S128x512.rank)
  bcast_S128x512_S128x512x1x1_0_1 : S128x512.BroadcastsInDim S128x512x1x1 (![0, 1] : Fin 2 → Fin S128x512x1x1.rank)
  bcast_S128x512x1x1_S128x512x28x28_0_1_2_3 : S128x512x1x1.BroadcastsInDim S128x512x28x28 (![0, 1, 2, 3] : Fin 4 → Fin S128x512x28x28.rank)
  dot_S128x512_S512x1000_S128x1000_1_0_0_1_n_n_wf : DotDims.WF S128x512 S512x1000 S128x1000 [1] [0] [0] [1] [] []
  gather_S1000x512_S128x1_S128x512_1_0_n_n_0_1_1512_wf : GatherDims.WF S1000x512 S128x1 S128x512 [1] [0] [] [0] [] 1 ![1, 512]

variable [Facts₀]

def dot_S128x512_S512x1000_S128x1000_1_0_0_1_n_n : DotDims S128x512 S512x1000 S128x1000 where
  lhsContracting := [1]
  rhsContracting := [0]
  lhsNonContracting := [0]
  rhsNonContracting := [1]
  lhsBatch := []
  rhsBatch := []
  wf := dot_S128x512_S512x1000_S128x1000_1_0_0_1_n_n_wf
def gather_S1000x512_S128x1_S128x512_1_0_n_n_0_1_1512 : GatherDims S1000x512 S128x1 S128x512 where
  offsetDims := [1]
  collapsedSliceDims := [0]
  operandBatchingDims := []
  startIndicesBatchingDims := []
  startIndexMap := [0]
  indexVectorDim := 1
  sliceSizes := ![1, 512]
  wf := gather_S1000x512_S128x1_S128x512_1_0_n_n_0_1_1512_wf

class Facts : Prop extends Facts₀ where

variable [Facts]
-- ==== Proof.Spec.lean ====
/-
  The mathematics both programs compute, stated once over plain functions.

  A row of 512 channel scores `g` (a sample's gathered weight row times its pooled activations) is
  turned into a mask in four steps, all on the extended reals:
    logits  a k = 1 + g k / sqrt (sum_j g j * g j) * gain        (gain is the printed word of sqrt 512 / 2)
    peak    M   = max (-inf) (max_k a k)
    weight  e k = exp (a k - M)
    mask    k   = e k / sum_j e j
  The pooled activation itself is a spatial mean: the sum of a 28 x 28 plane divided by 784, which on the
  extended reals is the same as the plane's 784 entries summed in any order and multiplied by 1/784.
-/
import Idealize.ShloMosaic.PureOps.Ideal
import Idealize.ShloMosaic.PureOps.Ideal.Laws
import Idealize.ShloMosaic.Lib.ValueIdx

noncomputable section

namespace Cert.ChannelMask

open Idealize.ShloMosaic Idealize.ShloMosaic.ValueIdx

/-- The three float literals both programs print, kept as their words: sqrt 512 / 2 rounded to f32, one, and minus infinity. -/
abbrev gain : EReal := Ideal.ofBits .f32 0x413504F3#32
abbrev base : EReal := Ideal.ofBits .f32 0x3F800000#32
abbrev low : EReal := Ideal.ofBits .f32 0xFF800000#32

/-- One plus the row divided by its Euclidean norm, scaled. -/
def logits (g : Fin 512 → EReal) (k : Fin 512) : EReal :=
  base + Ideal.div (g k) (Ideal.sqrt (∑ j : Fin 512, g j * g j)) * gain

/-- The row's maximum, taken from minus infinity (and once more against minus infinity, as both programs do). -/
def peak (a : Fin 512 → EReal) : EReal := max low (Finset.univ.fold max low a)

/-- The shifted exponential. -/
def weight (a : Fin 512 → EReal) (k : Fin 512) : EReal := Ideal.exp (a k - peak a)

/-- The softmax of the logits of a row of scores. -/
def mask (g : Fin 512 → EReal) (k : Fin 512) : EReal :=
  Ideal.div (weight (logits g) k) (∑ j : Fin 512, weight (logits g) j)

/-- The word 0x44440000 is the real number 784. -/
theorem ofBits_784 : Ideal.ofBits .f32 0x44440000#32 = ((784 : ℝ) : EReal) := by
  simp [Ideal.ofBits, Ideal.ieee, -EReal.coe_mul]; norm_num

/-- A sum started from the zero word and divided by 784 is the sum times 1/784, for every extended real. -/
theorem div_784 (s : EReal) :
    Ideal.div (Ideal.ofBits .f32 0x00000000#32 + s) (Ideal.ofBits .f32 0x44440000#32) = s * ((1 / 784 : ℝ) : EReal) := by
  rw [Ideal.ofBits_zero_f32, zero_add, ofBits_784, Ideal.div_coe (by norm_num)]

/-- Position k of a 28 x 28 plane, in row-major order, is at row k / 28 -/
abbrev planeRow (k : Fin 784) : Fin 28 := ⟨k.val / 28, by have := k.isLt; omega⟩
/-- and column k % 28. -/
abbrev planeCol (k : Fin 784) : Fin 28 := ⟨k.val % 28, Nat.mod_lt _ (by norm_num)⟩

/-- The mean of plane (n, c) of a [128, 512, 28, 28] array: its 784 entries summed, times 1/784. -/
def planeMean (X : (⟨4, ![128, 512, 28, 28]⟩ : Shape).Idx → EReal) (n : Fin 128) (c : Fin 512) : EReal :=
  (∑ k : Fin 784, X (ix4 n c (planeRow k) (planeCol k))) * ((1 / 784 : ℝ) : EReal)

/-- Sample n's channel mask: the mask of its row of scores, the score of channel j being the sample's weight
    entry W (n, j) times the mean of plane (n, j). -/
def sampleMask (X : (⟨4, ![128, 512, 28, 28]⟩ : Shape).Idx → EReal) (W : (⟨2, ![128, 512]⟩ : Shape).Idx → EReal)
    (n : Fin 128) (c : Fin 512) : EReal :=
  mask (fun j : Fin 512 => W (ix2 n j) * planeMean X n j) c

/-- The pooled activations, whole: entry (n, c) is the mean of plane (n, c). -/
def pooledOf (X : (⟨4, ![128, 512, 28, 28]⟩ : Shape).Idx → EReal) : (⟨2, ![128, 512]⟩ : Shape).Idx → EReal :=
  fun i => planeMean X ⟨(i 0).val, (i 0).isLt⟩ ⟨(i 1).val, (i 1).isLt⟩

/-- The masked activations, whole: every entry of X times its sample's mask at its channel. -/
def maskedOf (X : (⟨4, ![128, 512, 28, 28]⟩ : Shape).Idx → EReal) (W : (⟨2, ![128, 512]⟩ : Shape).Idx → EReal) :
    (⟨4, ![128, 512, 28, 28]⟩ : Shape).Idx → EReal :=
  fun i => X i * sampleMask X W ⟨(i 0).val, (i 0).isLt⟩ ⟨(i 1).val, (i 1).isLt⟩

/-- The entries of a [128, 512, 28, 28] array that a reduction over its last two axes sends to (n, c) are the
    784 entries of plane (n, c), here listed by their row-major position in the plane. -/
theorem sum_plane (h : (⟨4, ![128, 512, 28, 28]⟩ : Shape).ReducesTo [2, 3] ⟨2, ![128, 512]⟩)
    (x : (⟨4, ![128, 512, 28, 28]⟩ : Shape).Idx → EReal) (n : Fin 128) (c : Fin 512) :
    ∑ i ∈ Finset.univ.filter (fun i => h.drop i = ix2 n c), x i
      = ∑ k : Fin 784, x (ix4 n c (planeRow k) (planeCol k)) := by
  have back : ∀ i ∈ Finset.univ.filter (fun i : (⟨4, ![128, 512, 28, 28]⟩ : Shape).Idx => h.drop i = ix2 n c),
      ix4 n c (⟨((i 2).val * 28 + (i 3).val) / 28, by
          have h2 : (i 2).val < 28 := (i 2).isLt
          have h3 : (i 3).val < 28 := (i 3).isLt
          omega⟩ : Fin 28)
        (⟨((i 2).val * 28 + (i 3).val) % 28, Nat.mod_lt _ (by norm_num)⟩ : Fin 28) = i := by
    intro i hi
    have hj := (Finset.mem_filter.1 hi).2
    have e0 : (i 0).val = n.val :=
      (h.drop_apply_val_of_eq i 0 0).symm.trans (congrArg (fun j : (⟨2, ![128, 512]⟩ : Shape).Idx => (j 0).val) hj)
    have e1 : (i 1).val = c.val :=
      (h.drop_apply_val_of_eq i 1 1).symm.trans (congrArg (fun j : (⟨2, ![128, 512]⟩ : Shape).Idx => (j 1).val) hj)
    have h2 : (i 2).val < 28 := (i 2).isLt
    have h3 : (i 3).val < 28 := (i 3).isLt
    funext a
    apply Fin.ext
    match a with
    | ⟨0, _⟩ => exact e0.symm
    | ⟨1, _⟩ => exact e1.symm
    | ⟨2, _⟩ => show ((i 2).val * 28 + (i 3).val) / 28 = (i 2).val; omega
    | ⟨3, _⟩ => show ((i 2).val * 28 + (i 3).val) % 28 = (i 3).val; omega
  refine Finset.sum_nbij'
    (fun i => (⟨(i 2).val * 28 + (i 3).val, by
        have h2 : (i 2).val < 28 := (i 2).isLt
        have h3 : (i 3).val < 28 := (i 3).isLt
        omega⟩ : Fin 784))
    (fun k => ix4 n c (planeRow k) (planeCol k))
    ?_ ?_ ?_ ?_ ?_
  · intro i _; exact Finset.mem_univ _
  · intro k _
    refine Finset.mem_filter.2 ⟨Finset.mem_univ _, ?_⟩
    funext b
    apply Fin.ext
    match b with
    | ⟨0, _⟩ => exact h.drop_apply_val_of_eq _ 0 0
    | ⟨1, _⟩ => exact h.drop_apply_val_of_eq _ 1 1
  · intro i hi; exact back i hi
  · intro k _
    apply Fin.ext
    show k.val / 28 * 28 + k.val % 28 = k.val
    omega
  · intro i hi; exact congrArg x (back i hi).symm

end Cert.ChannelMask

end
-- ==== Proof.Layout.lean ====
/-
  Layout operations of a [4, 512, *] block read at an index written by coordinates: the keepdims forms a
  row-wise reduction leaves (a [4, 512] or [4, 1] result given back its unit axes, a per-sample value spread
  over the 512 channels, a per-channel value spread over the 784 lanes), and the reductions themselves as
  sums and maxima over a coordinate.
-/
import Idealize.ShloMosaic.Lib.Pipeline.Value
import Idealize.ShloMosaic.Lib.ValueIdx
import Idealize.ShloMosaic.PureOps.Ideal.Laws

noncomputable section

namespace Cert.Layout

open Idealize.ShloMosaic Idealize.ShloMosaic.ValueIdx

variable {α : Type}

/-- A [4, 512] array given a trailing unit axis reads, at (p, c, 0), the operand at (p, c). -/
theorem cast_keep (x : (⟨2, ![4, 512]⟩ : Shape).Idx → α) (h : (⟨2, ![4, 512]⟩ : Shape).ShapeCasts ⟨3, ![4, 512, 1]⟩)
    (p : Fin 4) (c : Fin 512) (z : Fin 1) : shapeCast ⟨3, ![4, 512, 1]⟩ x h (ix3 p c z) = x (ix2 p c) :=
  shapeCast_apply x h _ _ (by
    have hz : z.val = 0 := by omega
    rw [Shape.rowMajor_val_two, Shape.rowMajor_val_three]
    show p.val * 512 + c.val = (p.val * 512 + c.val) * 1 + z.val
    rw [hz, Nat.mul_one, Nat.add_zero])

/-- A [4, 1] array given a trailing unit axis reads, at (p, 0, 0), the operand at (p, 0). -/
theorem cast_col (x : (⟨2, ![4, 1]⟩ : Shape).Idx → α) (h : (⟨2, ![4, 1]⟩ : Shape).ShapeCasts ⟨3, ![4, 1, 1]⟩)
    (p : Fin 4) (z z' w : Fin 1) : shapeCast ⟨3, ![4, 1, 1]⟩ x h (ix3 p z z') = x (ix2 p w) :=
  shapeCast_apply x h _ _ (by
    have hz : z.val = 0 := by omega
    have hz' : z'.val = 0 := by omega
    have hw : w.val = 0 := by omega
    rw [Shape.rowMajor_val_two, Shape.rowMajor_val_three]
    show p.val * 1 + w.val = (p.val * 1 + z.val) * 1 + z'.val
    rw [hz, hz', hw]; omega)

/-- A per-sample value [4, 1, 1] spread over the channels reads, at (p, c, 0), the operand at (p, 0, 0). -/
theorem spread_channels (x : (⟨3, ![4, 1, 1]⟩ : Shape).Idx → α) (h : (⟨3, ![4, 1, 1]⟩ : Shape).Broadcasts ⟨3, ![4, 512, 1]⟩)
    (p : Fin 4) (c : Fin 512) (z : Fin 1) :
    broadcastTo ⟨3, ![4, 512, 1]⟩ x h (ix3 p c z) = x (ix3 p (0 : Fin 1) (0 : Fin 1)) := by
  refine broadcastTo_apply x h (ix3 p c z) (ix3 p (0 : Fin 1) (0 : Fin 1)) fun ax => ?_
  match ax with
  | ⟨0, _⟩ => rfl
  | ⟨1, _⟩ => rfl
  | ⟨2, _⟩ => rfl

/-- A per-channel value [4, 512, 1] spread over the lanes reads, at (p, c, k), the operand at (p, c, 0). -/
theorem spread_lanes (x : (⟨3, ![4, 512, 1]⟩ : Shape).Idx → α) (h : (⟨3, ![4, 512, 1]⟩ : Shape).Broadcasts ⟨3, ![4, 512, 784]⟩)
    (p : Fin 4) (c : Fin 512) (k : Fin 784) :
    broadcastTo ⟨3, ![4, 512, 784]⟩ x h (ix3 p c k) = x (ix3 p c (0 : Fin 1)) := by
  refine broadcastTo_apply x h (ix3 p c k) (ix3 p c (0 : Fin 1)) fun ax => ?_
  match ax with
  | ⟨0, _⟩ => rfl
  | ⟨1, _⟩ => rfl
  | ⟨2, _⟩ => rfl

/-- The sum over the lanes of a [4, 512, 784] block, at (p, c): the 784 entries of that row. -/
theorem sum_lanes (src : FVec Ideal ⟨3, ![4, 512, 784]⟩ .f32) (h : (⟨3, ![4, 512, 784]⟩ : Shape).Reduces [2] ⟨2, ![4, 512]⟩)
    (hφ : FKind.Formats .f32) (hacc : (0x00000000#32 : BitVec 32) = 0x00000000#32) (p : Fin 4) (c : Fin 512) :
    multiReduction .add [2] ⟨2, ![4, 512]⟩ src 0x00000000#32 h hφ hacc (ix2 p c) = ∑ k : Fin 784, src (ix3 p c k) :=
  (Ideal.multiReduction_add_single src 0x00000000#32 h hφ hacc (ix2 p c)).trans
    (Finset.sum_congr rfl fun k _ => congrArg src (funext fun a => Fin.ext (by
      match a with
      | ⟨0, _⟩ => rfl
      | ⟨1, _⟩ => rfl
      | ⟨2, _⟩ => rfl)))

/-- The sum over the channels of a [4, 512, 1] block, at (p, 0): the 512 entries of that sample. -/
theorem sum_channels (src : FVec Ideal ⟨3, ![4, 512, 1]⟩ .f32) (h : (⟨3, ![4, 512, 1]⟩ : Shape).Reduces [1] ⟨2, ![4, 1]⟩)
    (hφ : FKind.Formats .f32) (hacc : (0x00000000#32 : BitVec 32) = 0x00000000#32) (p : Fin 4) (z : Fin 1) :
    multiReduction .add [1] ⟨2, ![4, 1]⟩ src 0x00000000#32 h hφ hacc (ix2 p z) = ∑ c : Fin 512, src (ix3 p c z) :=
  (Ideal.multiReduction_add_single src 0x00000000#32 h hφ hacc (ix2 p z)).trans
    (Finset.sum_congr rfl fun c _ => congrArg src (funext fun a => Fin.ext (by
      match a with
      | ⟨0, _⟩ => rfl
      | ⟨1, _⟩ => rfl
      | ⟨2, _⟩ => rfl)))

/-- The maximum over the channels of a [4, 512, 1] block, at (p, 0): the fold of max from minus infinity over that sample's entries. -/
theorem max_channels (src : FVec Ideal ⟨3, ![4, 512, 1]⟩ .f32) (h : (⟨3, ![4, 512, 1]⟩ : Shape).Reduces [1] ⟨2, ![4, 1]⟩)
    (hφ : FKind.Formats .f32) (hacc : (0xFF800000#32 : BitVec 32) = 0xFF800000#32) (p : Fin 4) (z : Fin 1) :
    multiReduction .maximumf [1] ⟨2, ![4, 1]⟩ src 0xFF800000#32 h hφ hacc (ix2 p z)
      = (Finset.univ : Finset (Fin 512)).fold max (Ideal.ofBits .f32 0xFF800000#32) (fun c => src (ix3 p c z)) :=
  (Ideal.multiReduction_maximumf_single src 0xFF800000#32 h hφ hacc (ix2 p z)).trans
    (congrArg (Finset.fold max (Ideal.ofBits .f32 0xFF800000#32) · (Finset.univ : Finset (Fin 512)))
      (funext fun c => congrArg src (funext fun a => Fin.ext (by
        match a with
        | ⟨0, _⟩ => rfl
        | ⟨1, _⟩ => rfl
        | ⟨2, _⟩ => rfl))))

end Cert.Layout

end
-- ==== Proof.KernelBody.lean ====
/-
  What the kernel's body computes on one block of four samples, index by index.

  The body's two stored values are read at an index written by coordinates (sample p of the block, channel c,
  lane k). The pooled output at (p, c) is the sum of the 784 lanes of row (p, c) times the named constant, which
  denotes 1/784. The masked output at (p, c, k) is the input at (p, c, k) times the channel mask of sample p: the
  softmax, over the 512 channels, of one plus the normalised scores scaled, where the score of channel j is the
  sample's weight entry times its pooled activation. Every reduction in the body runs along the channel axis of
  one sample, so a sample's mask depends on that sample's rows alone.
-/
import proofs.«423341_j51702816309700_3_alg».proof.Proof.Gen.KernelIdeal.Skeleton
import proofs.«423341_j51702816309700_3_alg».proof.Proof.Spec
import proofs.«423341_j51702816309700_3_alg».proof.Proof.Layout
import Idealize.ShloMosaic.PureOps.IdealRules

noncomputable section

namespace Cert.KernelIdeal.Body

open Idealize.ShloMosaic Idealize.ShloMosaic.ValueIdx
open Cert.KernelIdeal Cert.KernelIdeal.Gen Cert.Layout Cert.ChannelMask

/-- The kernel's folded reciprocal is named, and the name denotes the rational 1/784. -/
theorem inv_784 : Named.named (F := Ideal) κ "inv_784" (φ := .f32) 0x3AA72F05#32 = ((1 / 784 : ℝ) : EReal) :=
  IdealRules.named_const.ideal_named_scalar _ _ _ _ rfl

/-- The pooled value the body stores at (p, c): the row's lanes summed, times 1/784. -/
theorem pooled_apply (x0 : Vec Ideal S4x512x784 .f32) (p : Fin 4) (c : Fin 512) (z : Fin 1) :
    k0_pay1 (F := Ideal) x0 (ix3 p c z) = (∑ k : Fin 784, x0 (ix3 p c k)) * ((1 / 784 : ℝ) : EReal) := by
  have e1 : shapeCast S4x512x1 (multiReduction (F := Ideal) (φ := .f32) .add [2] S4x512 (shapeCast S4x512x784 x0 shapeCasts_S4x512x784_S4x512x784)
        0x00000000#32 reduces_S4x512x784_S4x512 (.inl rfl) rfl) shapeCasts_S4x512_S4x512x1 (ix3 p c z)
      = ∑ k : Fin 784, x0 (ix3 p c k) :=
    (cast_keep _ _ p c z).trans ((sum_lanes _ _ _ _ p c).trans
      (Finset.sum_congr rfl fun k _ => congrFun (shapeCast_self x0 shapeCasts_S4x512x784_S4x512x784) (ix3 p c k)))
  exact congrArg₂ (· * ·) e1 inv_784

/-! The body's second payload, cut into the steps of the mask: each step a vector operation on [4, 512, 1]
    blocks, read below at (p, c, 0). -/

/-- The scores: the weight block times the pooled block. -/
def scores (x1 : Vec Ideal S4x512x1 .f32) (P : FVec Ideal S4x512x1 .f32) : FVec Ideal S4x512x1 .f32 :=
  mulf (shapeCast S4x512x1 x1 shapeCasts_S4x512x1_S4x512x1) P

/-- Each sample's Euclidean norm of its scores, spread over the channels. -/
def norms (g : FVec Ideal S4x512x1 .f32) : FVec Ideal S4x512x1 .f32 :=
  broadcastTo S4x512x1 (sqrt (shapeCast S4x1x1 (multiReduction .add [1] S4x1 (mulf g g) 0x00000000#32
    reduces_S4x512x1_S4x1 (.inl rfl) rfl) shapeCasts_S4x1_S4x1x1)) broadcasts_S4x1x1_S4x512x1

/-- One plus the normalised scores, scaled. -/
def logitsB (g : FVec Ideal S4x512x1 .f32) : FVec Ideal S4x512x1 .f32 :=
  addf (broadcast S4x512x1 (Scalar.ofBits .f32 0x3F800000#32))
    (mulf (divf g (norms g)) (broadcast S4x512x1 (Scalar.ofBits .f32 0x413504F3#32)))

/-- Each sample's largest logit, spread over the channels. -/
def peaks (a : FVec Ideal S4x512x1 .f32) : FVec Ideal S4x512x1 .f32 :=
  broadcastTo S4x512x1 (shapeCast S4x1x1 (maximumf (broadcast S4x1 (Scalar.ofBits .f32 0xFF800000#32))
    (multiReduction .maximumf [1] S4x1 a 0xFF800000#32 reduces_S4x512x1_S4x1 (.inl rfl) rfl)) shapeCasts_S4x1_S4x1x1)
    broadcasts_S4x1x1_S4x512x1

/-- The shifted exponentials. -/
def weights (a : FVec Ideal S4x512x1 .f32) : FVec Ideal S4x512x1 .f32 := exp (subf a (peaks a))

/-- Each sample's sum of its shifted exponentials, spread over the channels. -/
def totals (e : FVec Ideal S4x512x1 .f32) : FVec Ideal S4x512x1 .f32 :=
  broadcastTo S4x512x1 (shapeCast S4x1x1 (multiReduction .add [1] S4x1 e 0x00000000#32
    reduces_S4x512x1_S4x1 (.inl rfl) rfl) shapeCasts_S4x1_S4x1x1) broadcasts_S4x1x1_S4x512x1

/-- The mask block. -/
def maskB (g : FVec Ideal S4x512x1 .f32) : FVec Ideal S4x512x1 .f32 :=
  divf (weights (logitsB g)) (totals (weights (logitsB g)))

/-- The body's second payload is these steps in order, then the product with the input block. -/
theorem pay2_eq (x0 : Vec Ideal S4x512x784 .f32) (x1 : Vec Ideal S4x512x1 .f32) (x31 : Vec Ideal S4x512x784 .f32) :
    k0_pay2 (F := Ideal) x0 x1 x31
      = mulf (shapeCast S4x512x784 x31 shapeCasts_S4x512x784_S4x512x784)
          (broadcastTo S4x512x784 (maskB (scores x1 (k0_pay1 (F := Ideal) x0))) broadcasts_S4x512x1_S4x512x784) := rfl

theorem scores_apply (x1 : Vec Ideal S4x512x1 .f32) (P : FVec Ideal S4x512x1 .f32) (p : Fin 4) (c : Fin 512) :
    scores x1 P (ix3 p c (0 : Fin 1)) = x1 (ix3 p c (0 : Fin 1)) * P (ix3 p c (0 : Fin 1)) :=
  congrArg (· * P (ix3 p c (0 : Fin 1))) (congrFun (shapeCast_self x1 shapeCasts_S4x512x1_S4x512x1) (ix3 p c (0 : Fin 1)))

theorem norms_apply (g : FVec Ideal S4x512x1 .f32) (p : Fin 4) (c : Fin 512) :
    norms g (ix3 p c (0 : Fin 1)) = Ideal.sqrt (∑ j : Fin 512, g (ix3 p j (0 : Fin 1)) * g (ix3 p j (0 : Fin 1))) :=
  (spread_channels _ _ p c 0).trans (congrArg Ideal.sqrt ((cast_col _ _ p 0 0 0).trans (sum_channels _ _ _ _ p 0)))

theorem logitsB_apply (g : FVec Ideal S4x512x1 .f32) (p : Fin 4) (c : Fin 512) :
    logitsB g (ix3 p c (0 : Fin 1)) = base + Ideal.div (g (ix3 p c (0 : Fin 1))) (norms g (ix3 p c (0 : Fin 1))) * gain := rfl

theorem peaks_apply (a : FVec Ideal S4x512x1 .f32) (p : Fin 4) (c : Fin 512) :
    peaks a (ix3 p c (0 : Fin 1)) = max low (Finset.univ.fold max low (fun j : Fin 512 => a (ix3 p j (0 : Fin 1)))) :=
  (spread_channels _ _ p c 0).trans ((cast_col _ _ p 0 0 0).trans (congrArg (max low) (max_channels _ _ _ _ p 0)))

theorem weights_apply (a : FVec Ideal S4x512x1 .f32) (p : Fin 4) (c : Fin 512) :
    weights a (ix3 p c (0 : Fin 1)) = Ideal.exp (a (ix3 p c (0 : Fin 1)) - peaks a (ix3 p c (0 : Fin 1))) := rfl

theorem totals_apply (e : FVec Ideal S4x512x1 .f32) (p : Fin 4) (c : Fin 512) :
    totals e (ix3 p c (0 : Fin 1)) = ∑ j : Fin 512, e (ix3 p j (0 : Fin 1)) :=
  (spread_channels _ _ p c 0).trans ((cast_col _ _ p 0 0 0).trans (sum_channels _ _ _ _ p 0))

/-- The logits block at (p, c) is the logit of channel c of sample p's row of scores. -/
theorem logitsB_row (g : FVec Ideal S4x512x1 .f32) (p : Fin 4) (c : Fin 512) :
    logitsB g (ix3 p c (0 : Fin 1)) = logits (fun j : Fin 512 => g (ix3 p j (0 : Fin 1))) c := by
  rw [logitsB_apply, norms_apply]; rfl

/-- The weights block at (p, c) is the shifted exponential of channel c of sample p's row. -/
theorem weights_row (g : FVec Ideal S4x512x1 .f32) (p : Fin 4) (c : Fin 512) :
    weights (logitsB g) (ix3 p c (0 : Fin 1)) = weight (logits (fun j : Fin 512 => g (ix3 p j (0 : Fin 1)))) c := by
  rw [weights_apply, peaks_apply]
  simp only [logitsB_row]
  rfl

/-- The mask block at (p, c) is the mask of sample p's row of scores at channel c. -/
theorem maskB_apply (g : FVec Ideal S4x512x1 .f32) (p : Fin 4) (c : Fin 512) :
    maskB g (ix3 p c (0 : Fin 1)) = mask (fun j : Fin 512 => g (ix3 p j (0 : Fin 1))) c := by
  show Ideal.div (weights (logitsB g) (ix3 p c (0 : Fin 1))) (totals (weights (logitsB g)) (ix3 p c (0 : Fin 1))) = _
  rw [totals_apply]
  simp only [weights_row]
  rfl

/-- The masked value the body stores at (p, c, k): the input there times sample p's mask at channel c. -/
theorem masked_apply (x0 : Vec Ideal S4x512x784 .f32) (x1 : Vec Ideal S4x512x1 .f32) (p : Fin 4) (c : Fin 512) (k : Fin 784) :
    k0_pay2 (F := Ideal) x0 x1 x0 (ix3 p c k)
      = x0 (ix3 p c k) * mask (fun j : Fin 512 => x1 (ix3 p j (0 : Fin 1))
          * ((∑ l : Fin 784, x0 (ix3 p j l)) * ((1 / 784 : ℝ) : EReal))) c := by
  rw [pay2_eq]
  show shapeCast S4x512x784 x0 shapeCasts_S4x512x784_S4x512x784 (ix3 p c k)
      * broadcastTo S4x512x784 (maskB (scores x1 (k0_pay1 (F := Ideal) x0))) broadcasts_S4x512x1_S4x512x784 (ix3 p c k) = _
  rw [shapeCast_self, spread_lanes _ _ p c k, maskB_apply]
  simp only [scores_apply, pooled_apply]

end Cert.KernelIdeal.Body

end
-- ==== Proof.KernelValue.lean ====
/-
  The kernel program's two results as functions of its arguments.
-/
import proofs.«423341_j51702816309700_3_alg».proof.Proof.Gen.KernelIdeal.Frame
import proofs.«423341_j51702816309700_3_alg».proof.Proof.KernelBody
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Body Cert.ChannelMask
open Idealize.ShloMosaic.Pipeline (Dat Cfg Window)

variable (m : (ℓ : Loc nD τ sig) → Buf (Elt Ideal) ℓ) (ρ : Dev nD → PrngReg)

theorem hz : (![0, 0, 0] : Fin 3 → Nat) = fun _ => 0 := funext fun a => by fin_cases a <;> rfl

/-- The grid has 32 points, and point t works on block t of the sample axis: every window's block index is
    (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem lt32 (t : Fin cfg0.N) : t.val < 32 := lt_of_lt_of_eq t.isLt N_0

/-- Sample p of block t is sample 4 t + p of the batch. -/
abbrev row (t : Fin cfg0.N) (p : Fin 4) : Fin 128 := ⟨t.val * 4 + p.val, by have := lt32 t; omega⟩

/-- Window 0's block at point t, read at (p, q, k): the reshaped input at (4 t + p, q, k). -/
theorem read0 (c : Dev nD) (t : Fin cfg0.N) (p : Fin 4) (q : Fin 512) (k : Fin 784) :
    iblk m c 0 t (ix3 p q k) = V m c main_v0 (ix3 (row t p) q k) := by
  obtain ⟨e0, e1, e2, -⟩ := idx_facts t
  show V m c main_v0 (((cfg0.win 0).blk t).view.emb (ix3 p q k)) = V m c main_v0 (ix3 (row t p) q k)
  refine congrArg (V m c main_v0) (funext fun a => Fin.ext ?_)
  match a with
  | ⟨0, _⟩ => show win0_0.index t (0 : Fin 3) * 4 + 1 * p.val = t.val * 4 + p.val; omega
  | ⟨1, _⟩ => show win0_0.index t (1 : Fin 3) * 512 + 1 * q.val = q.val; omega
  | ⟨2, _⟩ => show win0_0.index t (2 : Fin 3) * 784 + 1 * k.val = k.val; omega

/-- Window 1's block at point t, read at (p, q, 0): the reshaped weight rows at (4 t + p, q, 0). -/
theorem read1 (c : Dev nD) (t : Fin cfg0.N) (p : Fin 4) (q : Fin 512) (z : Fin 1) :
    iblk m c 1 t (ix3 p q z) = V m c main_v8 (ix3 (row t p) q z) := by
  obtain ⟨-, -, -, e0, e1, e2, -⟩ := idx_facts t
  show V m c main_v8 (((cfg0.win 1).blk t).view.emb (ix3 p q z)) = V m c main_v8 (ix3 (row t p) q z)
  refine congrArg (V m c main_v8) (funext fun a => Fin.ext ?_)
  match a with
  | ⟨0, _⟩ => show win0_1.index t (0 : Fin 3) * 4 + 1 * p.val = t.val * 4 + p.val; omega
  | ⟨1, _⟩ => show win0_1.index t (1 : Fin 3) * 512 + 1 * q.val = q.val; omega
  | ⟨2, _⟩ => show win0_1.index t (2 : Fin 3) * 1 + 1 * z.val = z.val; omega

/-- The pooled value of row (n, c) of a [128, 512, 784] array: its lanes summed, times 1/784. -/
def pooledAt (A0 : S128x512x784.Idx → EReal) (n : Fin 128) (c : Fin 512) : EReal :=
  (∑ l : Fin 784, A0 (ix3 n c l)) * ((1 / 784 : ℝ) : EReal)

/-- Sample n's mask at channel c, from the [128, 512, 784] input and the [128, 512, 1] weight rows. -/
def maskAt (A0 : S128x512x784.Idx → EReal) (A1 : S128x512x1.Idx → EReal) (n : Fin 128) (c : Fin 512) : EReal :=
  mask (fun j : Fin 512 => A1 (ix3 n j (0 : Fin 1)) * pooledAt A0 n j) c

/-- The pooled output array, whole. -/
def Gpool (A0 : S128x512x784.Idx → EReal) : S128x512x1.Idx → EReal :=
  fun i => pooledAt A0 ⟨(i 0).val, (i 0).isLt⟩ ⟨(i 1).val, (i 1).isLt⟩

/-- The masked output array, whole. -/
def Gmask (A0 : S128x512x784.Idx → EReal) (A1 : S128x512x1.Idx → EReal) : S128x512x784.Idx → EReal :=
  fun i => A0 i * maskAt A0 A1 ⟨(i 0).val, (i 0).isLt⟩ ⟨(i 1).val, (i 1).isLt⟩

theorem Gmask_apply (A0 : S128x512x784.Idx → EReal) (A1 : S128x512x1.Idx → EReal) (n : Fin 128) (c : Fin 512) (k : Fin 784) :
    Gmask A0 A1 (ix3 n c k) = A0 (ix3 n c k) * maskAt A0 A1 n c := rfl

theorem Gpool_apply (A0 : S128x512x784.Idx → EReal) (n : Fin 128) (c : Fin 512) (z : Fin 1) :
    Gpool A0 (ix3 n c z) = pooledAt A0 n c := rfl

/-- A block of four samples whose rows are rows n4 p of the arrays: the body's masked value is the whole-array
    function at those rows (a sample's mask reads that sample's rows only). -/
theorem masked_block (A0 : S128x512x784.Idx → EReal) (A1 : S128x512x1.Idx → EReal) (n4 : Fin 4 → Fin 128)
    (x0 : Vec Ideal S4x512x784 .f32) (x1 : Vec Ideal S4x512x1 .f32)
    (h0 : ∀ (p : Fin 4) (q : Fin 512) (k : Fin 784), x0 (ix3 p q k) = A0 (ix3 (n4 p) q k))
    (h1 : ∀ (p : Fin 4) (q : Fin 512), x1 (ix3 p q (0 : Fin 1)) = A1 (ix3 (n4 p) q (0 : Fin 1)))
    (p : Fin 4) (q : Fin 512) (k : Fin 784) :
    k0_pay2 (F := Ideal) x0 x1 x0 (ix3 p q k) = Gmask A0 A1 (ix3 (n4 p) q k) := by
  rw [masked_apply, Gmask_apply]
  simp only [h0, h1]
  rfl

/-- The same for the pooled value. -/
theorem pooled_block (A0 : S128x512x784.Idx → EReal) (n4 : Fin 4 → Fin 128) (x0 : Vec Ideal S4x512x784 .f32)
    (h0 : ∀ (p : Fin 4) (q : Fin 512) (k : Fin 784), x0 (ix3 p q k) = A0 (ix3 (n4 p) q k))
    (p : Fin 4) (q : Fin 512) (z : Fin 1) :
    k0_pay1 (F := Ideal) x0 (ix3 p q z) = Gpool A0 (ix3 (n4 p) q z) := by
  rw [pooled_apply, Gpool_apply]
  simp only [h0]
  rfl

/-- Where element (p, q, k) of window 2's block at point t sits in the array. -/
theorem emb2 (t : Fin cfg0.N) (p : Fin 4) (q : Fin 512) (k : Fin 784) :
    ((cfg0.win 2).blk t).view.emb (ix3 p q k) = ix3 (row t p) q k := by
  obtain ⟨-, -, -, -, -, -, e0, e1, e2, -⟩ := idx_facts t
  funext a
  apply Fin.ext
  match a with
  | ⟨0, _⟩ => show win0_2.index t (0 : Fin 3) * 4 + 1 * p.val = t.val * 4 + p.val; omega
  | ⟨1, _⟩ => show win0_2.index t (1 : Fin 3) * 512 + 1 * q.val = q.val; omega
  | ⟨2, _⟩ => show win0_2.index t (2 : Fin 3) * 784 + 1 * k.val = k.val; omega

/-- Where element (p, q, 0) of window 3's block at point t sits in the array. -/
theorem emb3 (t : Fin cfg0.N) (p : Fin 4) (q : Fin 512) (z : Fin 1) :
    ((cfg0.win 3).blk t).view.emb (ix3 p q z) = ix3 (row t p) q z := by
  obtain ⟨-, -, -, -, -, -, -, -, -, e0, e1, e2⟩ := idx_facts t
  funext a
  apply Fin.ext
  match a with
  | ⟨0, _⟩ => show win0_3.index t (0 : Fin 3) * 4 + 1 * p.val = t.val * 4 + p.val; omega
  | ⟨1, _⟩ => show win0_3.index t (1 : Fin 3) * 512 + 1 * q.val = q.val; omega
  | ⟨2, _⟩ => show win0_3.index t (2 : Fin 3) * 1 + 1 * z.val = z.val; omega

/-- What point t writes back through window 2 is block t of the masked array. -/
theorem flushed2_eq (c : Dev nD) (t : Fin cfg0.N) :
    (dats m 0 c).flushed 2 t = ((cfg0.win 2).blk t).view.read (Elt Ideal) (Gmask (V m c main_v0) (V m c main_v8)) := by
  show (cfg0.win 2).cut (grid0.coords t) ((dats m 0 c).after 2 t) = _
  rw [after0_2]
  unfold out0_2
  rw [View.canon_unit_zero hz]
  simp only [View.ld_unit_zero (S := S4x512x784) hz, View.ld_unit_zero (S := S4x512x1) hz]
  funext j
  obtain ⟨p, q, k, rfl⟩ : ∃ (p : Fin 4) (q : Fin 512) (k : Fin 784), j = ix3 p q k := ⟨j 0, j 1, j 2, eq_ix3 j⟩
  show k0_pay2 (F := Ideal) (iblk m c 0 t) (iblk m c 1 t) (iblk m c 0 t) (ix3 p q k)
    = Gmask (V m c main_v0) (V m c main_v8) (((cfg0.win 2).blk t).view.emb (ix3 p q k))
  rw [emb2]
  exact masked_block (V m c main_v0) (V m c main_v8) (row t) (iblk m c 0 t) (iblk m c 1 t) (read0 m c t)
    (fun p q => read1 m c t p q 0) p q k

/-- What point t writes back through window 3 is block t of the pooled array. -/
theorem flushed3_eq (c : Dev nD) (t : Fin cfg0.N) :
    (dats m 0 c).flushed 3 t = ((cfg0.win 3).blk t).view.read (Elt Ideal) (Gpool (V m c main_v0)) := by
  show (cfg0.win 3).cut (grid0.coords t) ((dats m 0 c).after 3 t) = _
  rw [after0_3]
  unfold out0_3
  rw [View.canon_unit_zero hz]
  simp only [View.ld_unit_zero (S := S4x512x784) hz]
  funext j
  obtain ⟨p, q, z, rfl⟩ : ∃ (p : Fin 4) (q : Fin 512) (z : Fin 1), j = ix3 p q z := ⟨j 0, j 1, j 2, eq_ix3 j⟩
  show k0_pay1 (F := Ideal) (iblk m c 0 t) (ix3 p q z) = Gpool (V m c main_v0) (((cfg0.win 3).blk t).view.emb (ix3 p q z))
  rw [emb3]
  exact pooled_block (V m c main_v0) (row t) (iblk m c 0 t) (read0 m c t) p q z

/-- An index of the masked array is in point t's block iff each coordinate is in the block's range. -/
theorem mem_blk2 (t : Fin cfg0.N) (i : S128x512x784.Idx) :
    i ∈ ((cfg0.win 2).blk t).view.set ↔ ∀ a : Fin 3, win0_2.index t a * S4x512x784.size a ≤ (i a).val
      ∧ (i a).val < win0_2.index t a * S4x512x784.size a + S4x512x784.size a := by
  show i ∈ ((View.whole main_v9_0).slice (win0_2.rect t)).set ↔ _
  rw [View.set_slice_whole, Rect.mem_set_unit]
  exact Iff.rfl

theorem mem_blk3 (t : Fin cfg0.N) (i : S128x512x1.Idx) :
    i ∈ ((cfg0.win 3).blk t).view.set ↔ ∀ a : Fin 3, win0_3.index t a * S4x512x1.size a ≤ (i a).val
      ∧ (i a).val < win0_3.index t a * S4x512x1.size a + S4x512x1.size a := by
  show i ∈ ((View.whole main_v9_1).slice (win0_3.rect t)).set ↔ _
  rw [View.set_slice_whole, Rect.mem_set_unit]
  exact Iff.rfl

/-- Sample n lies in the block of point n / 4: the 32 blocks tile the sample axis. -/
theorem cover2 (i : S128x512x784.Idx) :
    ∃ t : Fin cfg0.N, (cfg0.win 2).flush t = true ∧ i ∈ ((cfg0.win 2).blk t).view.set := by
  have hi0 : (i 0).val < 128 := (i 0).isLt
  have hi1 : (i 1).val < 512 := (i 1).isLt
  have hi2 : (i 2).val < 784 := (i 2).isLt
  have hN : (i 0).val / 4 < cfg0.N := by show (i 0).val / 4 < grid0.N; rw [N_0]; omega
  obtain ⟨-, -, -, -, -, -, e0, e1, e2, -⟩ := idx_facts ⟨(i 0).val / 4, hN⟩
  have e0' : win0_2.index ⟨(i 0).val / 4, hN⟩ (0 : Fin 3) = (i 0).val / 4 := e0
  refine ⟨⟨(i 0).val / 4, hN⟩, flush0_2 _, ?_⟩
  rw [mem_blk2]
  intro a
  match a with
  | ⟨0, _⟩ =>
    show win0_2.index ⟨(i 0).val / 4, hN⟩ (0 : Fin 3) * 4 ≤ (i 0).val ∧ (i 0).val < win0_2.index ⟨(i 0).val / 4, hN⟩ (0 : Fin 3) * 4 + 4
    omega
  | ⟨1, _⟩ =>
    show win0_2.index ⟨(i 0).val / 4, hN⟩ (1 : Fin 3) * 512 ≤ (i 1).val ∧ (i 1).val < win0_2.index ⟨(i 0).val / 4, hN⟩ (1 : Fin 3) * 512 + 512
    omega
  | ⟨2, _⟩ =>
    show win0_2.index ⟨(i 0).val / 4, hN⟩ (2 : Fin 3) * 784 ≤ (i 2).val ∧ (i 2).val < win0_2.index ⟨(i 0).val / 4, hN⟩ (2 : Fin 3) * 784 + 784
    omega

theorem cover3 (i : S128x512x1.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 1 := (i 2).isLt
  have hN : (i 0).val / 4 < cfg0.N := by show (i 0).val / 4 < grid0.N; rw [N_0]; omega
  obtain ⟨-, -, -, -, -, -, -, -, -, e0, e1, e2⟩ := idx_facts ⟨(i 0).val / 4, hN⟩
  have e0' : win0_3.index ⟨(i 0).val / 4, hN⟩ (0 : Fin 3) = (i 0).val / 4 := e0
  refine ⟨⟨(i 0).val / 4, hN⟩, flush0_3 _, ?_⟩
  rw [mem_blk3]
  intro a
  match a with
  | ⟨0, _⟩ =>
    show win0_3.index ⟨(i 0).val / 4, hN⟩ (0 : Fin 3) * 4 ≤ (i 0).val ∧ (i 0).val < win0_3.index ⟨(i 0).val / 4, hN⟩ (0 : Fin 3) * 4 + 4
    omega
  | ⟨1, _⟩ =>
    show win0_3.index ⟨(i 0).val / 4, hN⟩ (1 : Fin 3) * 512 ≤ (i 1).val ∧ (i 1).val < win0_3.index ⟨(i 0).val / 4, hN⟩ (1 : Fin 3) * 512 + 512
    omega
  | ⟨2, _⟩ =>
    show win0_3.index ⟨(i 0).val / 4, hN⟩ (2 : Fin 3) * 1 ≤ (i 2).val ∧ (i 2).val < win0_3.index ⟨(i 0).val / 4, hN⟩ (2 : Fin 3) * 1 + 1
    omega

/-- The masked array after the run, whole. -/
theorem final2 (c : Dev nD) : (dats m 0 c).arrAt 2 cfg0.N = Gmask (V m c main_v0) (V m c main_v8) :=
  (dats m 0 c).arrAt_eq_of_cover 2 _ (fun t _ => flushed2_eq m c t) cover2

/-- The pooled array after the run, whole. -/
theorem final3 (c : Dev nD) : (dats m 0 c).arrAt 3 cfg0.N = Gpool (V m c main_v0) :=
  (dats m 0 c).arrAt_eq_of_cover 3 _ (fun t _ => flushed3_eq m c t) cover3

/-! ## @main around the region -/

/-- The gathered weight rows, as @main computes them before the region: row n of the table at the index y n read
    signed (a negative index is first moved up by the table's 1000 rows). -/
def gathered (y : (⟨S128, .i32⟩ : BufTy).Contents (Elt Ideal)) (Wt : (⟨S1000x512, .f32⟩ : BufTy).Contents (Elt Ideal)) :
    (⟨S128x512, .f32⟩ : BufTy).Contents (Elt Ideal) :=
  Host.gather gather_S1000x512_S128x1_S128x512_1_0_n_n_0_1_1512 Wt
    (broadcastInDim S128x1 ![0] bcast_S128_S128x1_0
      (select (cmpi CmpIPredicate.slt y (broadcastInDim S128 ![] bcast_S_S128 (constantI S_ 32 0#32)))
        (addi y (broadcastInDim S128 ![] bcast_S_S128 (constantI S_ 32 1000#32))) y))

/-- The class scores from the pooled activations: their product with the transposed weight table, plus the bias
    row on every sample. Carried unopened: both programs end with these operations. -/
def predOf (P : FVec Ideal S128x512 .f32) (Wt : FVec Ideal S1000x512 .f32) (b : FVec Ideal S1000 .f32) :
    FVec Ideal S128x1000 .f32 :=
  addf (Host.dotGeneral dot_S128x512_S512x1000_S128x1000_1_0_0_1_n_n none P
      (transpose S512x1000 [1, 0] Wt transposes_S1000x512_S512x1000_1_0))
    (broadcastInDim S128x1000 ![0, 1] bcast_S1x1000_S128x1000_0_1 (broadcastInDim S1x1000 ![1] bcast_S1000_S1x1000_1 b))

/-- The region finds the input with its two spatial axes flattened -/
theorem V_v0 (c : Dev nD) :
    V m c main_v0 = shapeCast S128x512x784 (m ((c : Thread nD τ).loc main_arg0)) shapeCasts_S128x512x28x28_S128x512x784 := by
  show StableHlo.after hostOps0 (fun b => m (c, b)) (Proc.devRef .tc main_v0) = _
  after_results
  rfl

/-- and the gathered weight rows with a trailing unit axis. -/
theorem V_v8 (c : Dev nD) :
    V m c main_v8 = shapeCast S128x512x1 (gathered (m ((c : Thread nD τ).loc main_arg1)) (m ((c : Thread nD τ).loc main_arg2)))
      shapeCasts_S128x512_S128x512x1 := by
  show StableHlo.after hostOps0 (fun b => m (c, b)) (Proc.devRef .tc main_v8) = _
  after_results
  rfl

/-- The flattened input at (n, c, l) is the input at (n, c, l / 28, l % 28). -/
theorem flat_apply (X : S128x512x28x28.Idx → EReal) (n : Fin 128) (c : Fin 512) (l : Fin 784) :
    shapeCast S128x512x784 X shapeCasts_S128x512x28x28_S128x512x784 (ix3 n c l) = X (ix4 n c (planeRow l) (planeCol l)) :=
  shapeCast_apply X _ _ _ (by
    rw [Shape.rowMajor_val_four, Shape.rowMajor_val_three]
    show ((n.val * 512 + c.val) * 28 + l.val / 28) * 28 + l.val % 28 = (n.val * 512 + c.val) * 784 + l.val
    omega)

/-- The weight rows with a trailing unit axis, at (n, j, 0). -/
theorem keep_apply (W : S128x512.Idx → EReal) (n : Fin 128) (j : Fin 512) (z : Fin 1) :
    shapeCast S128x512x1 W shapeCasts_S128x512_S128x512x1 (ix3 n j z) = W (ix2 n j) :=
  shapeCast_apply W _ _ _ (by
    have hz : z.val = 0 := by omega
    rw [Shape.rowMajor_val_two, Shape.rowMajor_val_three]
    show n.val * 512 + j.val = (n.val * 512 + j.val) * 1 + z.val
    omega)

/-- Row (n, c) of the flattened input pools to the mean of plane (n, c). -/
theorem pooledAt_flat (X : S128x512x28x28.Idx → EReal) (n : Fin 128) (c : Fin 512) :
    pooledAt (shapeCast S128x512x784 X shapeCasts_S128x512x28x28_S128x512x784) n c = planeMean X n c := by
  unfold pooledAt planeMean
  simp only [flat_apply]

/-- The mask the region computes for sample n is the specification's. -/
theorem maskAt_flat (X : S128x512x28x28.Idx → EReal) (W : S128x512.Idx → EReal) (n : Fin 128) (c : Fin 512) :
    maskAt (shapeCast S128x512x784 X shapeCasts_S128x512x28x28_S128x512x784) (shapeCast S128x512x1 W shapeCasts_S128x512_S128x512x1) n c
      = sampleMask X W n c := by
  unfold maskAt sampleMask
  simp only [keep_apply, pooledAt_flat]

/-- The first result: the masked array given back its two spatial axes is the specification's masked activations. -/
theorem result0 (c : Dev nD) :
    Pipeline.afterTail₀ cfgs (dats m) 0 (V0 m) [hostOps1] c main_v11
      = maskedOf (m ((c : Thread nD τ).loc main_arg0))
          (gathered (m ((c : Thread nD τ).loc main_arg1)) (m ((c : Thread nD τ).loc main_arg2))) := by
  have w2 : Pipeline.withArrays (cfgs 0).spec c (V0 m c) (fun w => (dats m 0 c).arrAt w (cfgs 0).N) (Proc.devRef .tc main_v9_0)
      = Gmask (V m c main_v0) (V m c main_v8) :=
    (Pipeline.withArrays_arr spec0 launch0.win.arr_inj c _ _ 2).trans (final2 m c)
  unfold Pipeline.afterTail₀
  show StableHlo.after hostOps1 _ (Proc.devRef .tc main_v11) = _
  after_results
  rw [w2, V_v0, V_v8]
  funext i
  obtain ⟨n, q, h, w, rfl⟩ : ∃ (n : Fin 128) (q : Fin 512) (h : Fin 28) (w : Fin 28), i = ix4 n q h w :=
    ⟨i 0, i 1, i 2, i 3, eq_ix4 i⟩
  have hl : h.val * 28 + w.val < 784 := by have := h.isLt; have := w.isLt; omega
  show shapeCast S128x512x28x28 (Gmask _ _) shapeCasts_S128x512x784_S128x512x28x28 (ix4 n q h w) = _
  refine (shapeCast_apply _ _ (ix4 n q h w) (ix3 n q (⟨h.val * 28 + w.val, hl⟩ : Fin 784)) (by
    rw [Shape.rowMajor_val_three, Shape.rowMajor_val_four]
    show (n.val * 512 + q.val) * 784 + (h.val * 28 + w.val) = ((n.val * 512 + q.val) * 28 + h.val) * 28 + w.val
    omega)).trans ?_
  rw [Gmask_apply, flat_apply, maskAt_flat]
  have eh : planeRow (⟨h.val * 28 + w.val, hl⟩ : Fin 784) = h := Fin.ext (by
    show (h.val * 28 + w.val) / 28 = h.val; have := w.isLt; omega)
  have ew : planeCol (⟨h.val * 28 + w.val, hl⟩ : Fin 784) = w := Fin.ext (by
    show (h.val * 28 + w.val) % 28 = w.val; have := w.isLt; omega)
  rw [eh, ew]
  rfl

/-- The pooled array with its unit axis dropped is the specification's pooled activations. -/
theorem pooled_result (X : S128x512x28x28.Idx → EReal) :
    shapeCast S128x512 (Gpool (shapeCast S128x512x784 X shapeCasts_S128x512x28x28_S128x512x784)) shapeCasts_S128x512x1_S128x512
      = pooledOf X := by
  funext i
  obtain ⟨n, q, rfl⟩ : ∃ (n : Fin 128) (q : Fin 512), i = ix2 n q := ⟨i 0, i 1, eq_ix2 i⟩
  refine (shapeCast_apply _ _ (ix2 n q) (ix3 n q (0 : Fin 1)) (by
    rw [Shape.rowMajor_val_three, Shape.rowMajor_val_two]
    show (n.val * 512 + q.val) * 1 + 0 = n.val * 512 + q.val
    omega)).trans ?_
  rw [Gpool_apply, pooledAt_flat]
  rfl

/-- The second result: the class scores of the specification's pooled activations. -/
theorem result1 (c : Dev nD) :
    Pipeline.afterTail₀ cfgs (dats m) 0 (V0 m) [hostOps1] c main_v16
      = predOf (pooledOf (m ((c : Thread nD τ).loc main_arg0))) (m ((c : Thread nD τ).loc main_arg2))
          (m ((c : Thread nD τ).loc main_arg3)) := by
  have w3 : Pipeline.withArrays (cfgs 0).spec c (V0 m c) (fun w => (dats m 0 c).arrAt w (cfgs 0).N) (Proc.devRef .tc main_v9_1)
      = Gpool (V m c main_v0) :=
    (Pipeline.withArrays_arr spec0 launch0.win.arr_inj c _ _ 3).trans (final3 m c)
  have a2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have a3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v16) = _
  after_results
  rw [w3, a2, a3, V_v0]
  rw [← pooled_result (m ((c : Thread nD τ).loc main_arg0))]
  rfl

/-! ## The run, read -/

/-- Every weakly fair execution of the kernel program ends with its first result at the masked activations and its
    second at the class scores of the pooled activations, the arguments unchanged. -/
theorem run : θ_run defs (onTc (τ := τ) (main (F := Ideal))) ⟨m, fun _ => 0, ρ⟩ fun r => ∀ c : Dev nD,
      r.2.mem ((c.tc : Thread nD τ).loc main_v11)
        = maskedOf (m ((c : Thread nD τ).loc main_arg0))
            (gathered (m ((c : Thread nD τ).loc main_arg1)) (m ((c : Thread nD τ).loc main_arg2)))
      ∧ r.2.mem ((c.tc : Thread nD τ).loc main_v16)
        = predOf (pooledOf (m ((c : Thread nD τ).loc main_arg0))) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (result0 m c),
      ((h c).2 main_v16 (Pipeline.mem_restRefs_of main_v16 (by decide) (by decide))).trans (result1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Blocks

end
-- ==== Proof.RefValue.lean ====
/-
  The reference program's stages read at an index, down to the specification.

  Every stage of the reference between the spatial mean and the masked product is a [128, 512] array whose
  entry (n, c) depends on sample n's row only: the score W (n, c) times the mean of plane (n, c), the row's norm,
  the logits, their maximum, the shifted exponentials, their sum, the mask. Each is read here at (n, c) and named
  by the row functions of the specification; the gathered weight rows W are carried as one unopened array.
-/
import proofs.«423341_j51702816309700_3_alg».proof.Proof.Gen.ReferenceIdeal.Read
import proofs.«423341_j51702816309700_3_alg».proof.Proof.Spec

noncomputable section

namespace Cert.ReferenceIdeal.Rows

open Idealize.ShloMosaic Idealize.ShloMosaic.ValueIdx
open Cert.ReferenceIdeal Cert.ReferenceIdeal.Gen Cert.ReferenceIdeal.Read Cert.ChannelMask

variable (X : (⟨S128x512x28x28, .f32⟩ : BufTy).Contents (Elt Ideal)) (y : (⟨S128, .i32⟩ : BufTy).Contents (Elt Ideal))
  (Wt : (⟨S1000x512, .f32⟩ : BufTy).Contents (Elt Ideal))

/-! The index maps of the reference's broadcasts and sums, at indices written by coordinates. -/

theorem idx17 (n : Fin 128) (c : Fin 512) : idx_main_v17 (ix2 n c) = ix2 n (0 : Fin 1) :=
  funext fun a => Fin.ext (by match a with | ⟨0, _⟩ => rfl | ⟨1, _⟩ => rfl)
theorem idx27 (n : Fin 128) (c : Fin 512) : idx_main_v27 (ix2 n c) = ix2 n (0 : Fin 1) :=
  funext fun a => Fin.ext (by match a with | ⟨0, _⟩ => rfl | ⟨1, _⟩ => rfl)
theorem idx32 (n : Fin 128) (c : Fin 512) : idx_main_v32 (ix2 n c) = ix2 n (0 : Fin 1) :=
  funext fun a => Fin.ext (by match a with | ⟨0, _⟩ => rfl | ⟨1, _⟩ => rfl)
theorem idxc2 (n : Fin 128) (z : Fin 1) : idx_main_call0_v2 (ix2 n z) = ix1 n :=
  funext fun a => Fin.ext (by match a with | ⟨0, _⟩ => rfl)
theorem idx26 (n : Fin 128) (z : Fin 1) : idx_main_v26 (ix2 n z) = ix1 n :=
  funext fun a => Fin.ext (by match a with | ⟨0, _⟩ => rfl)
theorem idx31 (n : Fin 128) (z : Fin 1) : idx_main_v31 (ix2 n z) = ix1 n :=
  funext fun a => Fin.ext (by match a with | ⟨0, _⟩ => rfl)
theorem idxc1 (n : Fin 128) (k : Fin 512) : idx_main_call0_v1 (ix1 n) k = ix2 n k :=
  funext fun a => Fin.ext (by match a with | ⟨0, _⟩ => rfl | ⟨1, _⟩ => rfl)
theorem idx30 (n : Fin 128) (k : Fin 512) : idx_main_v30 (ix1 n) k = ix2 n k :=
  funext fun a => Fin.ext (by match a with | ⟨0, _⟩ => rfl | ⟨1, _⟩ => rfl)
theorem idx35 (n : Fin 128) (c : Fin 512) (h w : Fin 28) : idx_main_v35 (ix4 n c h w) = ix4 n c (0 : Fin 1) (0 : Fin 1) :=
  funext fun a => Fin.ext (by match a with | ⟨0, _⟩ => rfl | ⟨1, _⟩ => rfl | ⟨2, _⟩ => rfl | ⟨3, _⟩ => rfl)
theorem idx34 (n : Fin 128) (c : Fin 512) (z z' : Fin 1) : idx_main_v34 (ix4 n c z z') = ix2 n c :=
  funext fun a => Fin.ext (by match a with | ⟨0, _⟩ => rfl | ⟨1, _⟩ => rfl)

/-- The pooled activation at (n, c): the plane's sum from the zero word, divided by 784, is the plane's mean. -/
theorem pooled_apply (n : Fin 128) (c : Fin 512) : val_main_v2 (F := Ideal) X (ix2 n c) = planeMean X n c := by
  show Ideal.div (Ideal.ofBits .f32 0x00000000#32
      + ∑ i ∈ Finset.univ.filter (fun i => reducesTo_S128x512x28x28_S128x512_d2_3.drop i = ix2 n c), X i)
    (Ideal.ofBits .f32 0x44440000#32) = planeMean X n c
  rw [sum_plane reducesTo_S128x512x28x28_S128x512_d2_3 X n c]
  exact div_784 _

/-- Sample n's row of scores: the gathered weight entry times the pooled activation. -/
def score (n : Fin 128) (j : Fin 512) : EReal := val_main_v14 (F := Ideal) y Wt (ix2 n j) * planeMean X n j

theorem score_apply (n : Fin 128) (j : Fin 512) : val_main_v15 (F := Ideal) X y Wt (ix2 n j) = score X y Wt n j := by
  rw [val_main_v15_apply, pooled_apply]; rfl

/-- The row's norm, spread over the channels. -/
theorem norm_apply (n : Fin 128) (c : Fin 512) :
    val_main_v17 (F := Ideal) X y Wt (ix2 n c) = Ideal.sqrt (∑ j : Fin 512, score X y Wt n j * score X y Wt n j) := by
  rw [val_main_v17_apply, idx17, val_main_v16_apply, val_main_call0_v2_apply, idxc2, val_main_call0_v1_apply,
    val_main_call0_cst_apply]
  simp only [idxc1, val_main_call0_v0_apply, score_apply, Ideal.mulf_def, Ideal.hostUnary_sqrt_def, Ideal.ofBits_def,
    Ideal.ofBits_zero_f32, zero_add]

theorem logits_apply (n : Fin 128) (c : Fin 512) :
    val_main_v22 (F := Ideal) X y Wt (ix2 n c) = logits (score X y Wt n) c := by
  rw [val_main_v22_apply, val_main_v21_apply, val_main_cst_3_apply, val_main_v20_apply, val_main_v19_apply,
    val_main_cst_2_apply, val_main_v18_apply, score_apply, norm_apply]
  rfl

theorem peak_apply (n : Fin 128) (c : Fin 512) :
    val_main_v27 (F := Ideal) X y Wt (ix2 n c) = peak (logits (score X y Wt n)) := by
  rw [val_main_v27_apply, idx27, val_main_v26_apply, idx26, val_main_v25_apply, val_main_v24_apply, val_main_cst_5_apply]
  unfold val_main_v23
  rw [Host.reduce_eq_fold_single (FloatOps.maximumf (F := Ideal) (φ := .f32)) _ _ reducesTo_S128x512_S128_d1 (by decide) h_S_ (ix1 n)]
  have hl : (val_main_v22 (F := Ideal) X y Wt ∘ Shape.Reduces.lift (show S128x512.Reduces [1] S128 by decide) (ix1 n))
      = logits (score X y Wt n) := by
    funext k
    show val_main_v22 (F := Ideal) X y Wt (Shape.Reduces.lift (show S128x512.Reduces [1] S128 by decide) (ix1 n) k) = _
    rw [show Shape.Reduces.lift (show S128x512.Reduces [1] S128 by decide) (ix1 n) k = ix2 n k from
      funext fun a => Fin.ext (by match a with | ⟨0, _⟩ => rfl | ⟨1, _⟩ => rfl)]
    exact logits_apply X y Wt n k
  rw [hl]
  rfl

theorem weight_apply (n : Fin 128) (c : Fin 512) :
    val_main_v29 (F := Ideal) X y Wt (ix2 n c) = weight (logits (score X y Wt n)) c := by
  rw [val_main_v29_apply, val_main_v28_apply, logits_apply, peak_apply]
  rfl

theorem total_apply (n : Fin 128) (c : Fin 512) :
    val_main_v32 (F := Ideal) X y Wt (ix2 n c) = ∑ j : Fin 512, weight (logits (score X y Wt n)) j := by
  rw [val_main_v32_apply, idx32, val_main_v31_apply, idx31, val_main_v30_apply, val_main_cst_6_apply]
  simp only [idx30, weight_apply, Ideal.ofBits_def, Ideal.ofBits_zero_f32, zero_add]

theorem mask_apply (n : Fin 128) (c : Fin 512) :
    val_main_v33 (F := Ideal) X y Wt (ix2 n c) = mask (score X y Wt n) c := by
  rw [val_main_v33_apply, weight_apply, total_apply]
  rfl

/-- The reference's first result is the masked activations of the specification, over the gathered weight rows. -/
theorem masked_eq : val_main_v36 (F := Ideal) X y Wt = maskedOf X (val_main_v14 (F := Ideal) y Wt) := by
  funext i
  obtain ⟨n, c, h, w, rfl⟩ : ∃ (n : Fin 128) (c : Fin 512) (h : Fin 28) (w : Fin 28), i = ix4 n c h w :=
    ⟨i 0, i 1, i 2, i 3, eq_ix4 i⟩
  rw [val_main_v36_apply, val_main_v35_apply, idx35, val_main_v34_apply, idx34, mask_apply]
  rfl

/-- The reference's pooled activations are the specification's. -/
theorem pooled_eq : val_main_v2 (F := Ideal) X = pooledOf X := by
  funext i
  obtain ⟨n, c, rfl⟩ : ∃ (n : Fin 128) (c : Fin 512), i = ix2 n c := ⟨i 0, i 1, eq_ix2 i⟩
  exact pooled_apply X n c

end Cert.ReferenceIdeal.Rows

end
-- ==== Proof.lean ====
/-
  A fused pooling-and-masking kernel against its plain reference, over the extended reals.

  Both programs take activations X : [128, 512, 28, 28], labels y : [128], a weight table Wt : [1000, 512] and a bias
  b : [1000], and return the masked activations and the class scores.
    pooled (n, c)  = the mean of plane (n, c) of X
    W (n, c)       = row y n of Wt at c (the index read signed; both programs print the same gather)
    mask (n, .)    = softmax over c of 1 + g / ‖g‖ · (√512 / 2), where g c = W (n, c) · pooled (n, c)
    result 0       = X (n, c, h, w) · mask (n, c)
    result 1       = pooled · Wtᵀ + b
  The reference computes each line on whole arrays. The kernel flattens the two spatial axes, walks the batch in 32
  blocks of four samples, and in one pass per block sums the 784 lanes of each row, multiplies by its folded
  reciprocal, computes the four samples' masks along the channel axis and multiplies. Two facts join them: the
  784 entries of a plane sum to the same extended real in either arrangement (addition is commutative and
  associative), and a sum divided by 784 is the sum times the named constant, which denotes 1/784, on every
  extended real. Every other step is the same operation on both sides, so no finiteness of the inputs is used.
  The gather before the kernel and the matrix product and bias after it are the same host operations in both
  programs and are carried as unopened functions of equal arguments.
-/
import proofs.«423341_j51702816309700_3_alg».proof.Defs
import proofs.«423341_j51702816309700_3_alg».proof.Proof.Gen.Kernel
import proofs.«423341_j51702816309700_3_alg».proof.Proof.Gen.Kernel.Skeleton
import proofs.«423341_j51702816309700_3_alg».proof.Proof.Gen.Kernel.Launch
import proofs.«423341_j51702816309700_3_alg».proof.Proof.Gen.Kernel.Points
import proofs.«423341_j51702816309700_3_alg».proof.Proof.Gen.Kernel.Frame
import proofs.«423341_j51702816309700_3_alg».proof.Proof.Gen.KernelIdeal
import proofs.«423341_j51702816309700_3_alg».proof.Proof.Gen.KernelIdeal.Skeleton
import proofs.«423341_j51702816309700_3_alg».proof.Proof.Gen.KernelIdeal.Launch
import proofs.«423341_j51702816309700_3_alg».proof.Proof.Gen.KernelIdeal.Points
import proofs.«423341_j51702816309700_3_alg».proof.Proof.Gen.KernelIdeal.Frame
import proofs.«423341_j51702816309700_3_alg».proof.Proof.Gen.ReferenceIdeal
import proofs.«423341_j51702816309700_3_alg».proof.Proof.Gen.Pre_finite_inputs
import proofs.«423341_j51702816309700_3_alg».proof.Proof.Gen.ReferenceIdeal.Run
import proofs.«423341_j51702816309700_3_alg».proof.Proof.Gen.ReferenceIdeal.Read
import proofs.«423341_j51702816309700_3_alg».proof.Proof.KernelValue
import proofs.«423341_j51702816309700_3_alg».proof.Proof.RefValue
import Idealize.ShloMosaic.Adequacy
import Idealize.ShloMosaic.Init

noncomputable section

namespace Cert.Proof

open Idealize.ShloMosaic Idealize.ShloMosaic.TcCoe Idealize.SL.Sem Cert.ChannelMask

/-! ## The two programs' shared host operations, as one function each -/

/-- Both programs gather the same weight rows. -/
theorem gathered_eq (y : (⟨Cert.ReferenceIdeal.S128, .i32⟩ : BufTy).Contents (Elt Ideal))
    (Wt : (⟨Cert.ReferenceIdeal.S1000x512, .f32⟩ : BufTy).Contents (Elt Ideal)) :
    Cert.ReferenceIdeal.Read.val_main_v14 (F := Ideal) y Wt = Cert.KernelIdeal.Blocks.gathered y Wt := rfl

/-- The reference's class scores are the kernel program's last operations applied to the specification's pooled
    activations. -/
theorem ref_pred (X : (⟨Cert.ReferenceIdeal.S128x512x28x28, .f32⟩ : BufTy).Contents (Elt Ideal))
    (Wt : (⟨Cert.ReferenceIdeal.S1000x512, .f32⟩ : BufTy).Contents (Elt Ideal))
    (b : (⟨Cert.ReferenceIdeal.S1000, .f32⟩ : BufTy).Contents (Elt Ideal)) :
    Cert.ReferenceIdeal.Read.val_main_v7 (F := Ideal) X Wt b = Cert.KernelIdeal.Blocks.predOf (pooledOf X) Wt b := by
  unfold Cert.ReferenceIdeal.Read.val_main_v7 Cert.ReferenceIdeal.Read.val_main_v4
  rw [Cert.ReferenceIdeal.Rows.pooled_eq]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ledger's one entry: the table gives the kernel's folded reciprocal the value 1/784, and the printed
    constant is that value at the ideal instance. -/
theorem preserves : Cert.preserves_Kernel_KernelIdeal :=
  IdealRules.named_const.statement Cert.KernelIdeal.κ "inv_784" .f32 0x3AA72F05#32 ((1 / 784 : ℝ) : EReal) rfl

/-- From memories agreeing on the arguments both programs end at the specification's masked activations and at the
    class scores of its pooled activations. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v36_eq, (hagree c).1, (hagree c).2.1, (hagree c).2.2.1,
      Cert.ReferenceIdeal.Rows.masked_eq, gathered_eq]
  · refine ((h c).2.1.trans (Cert.ReferenceIdeal.Read.val_main_v7_eq _ _ _)).trans ?_
    rw [(hagree c).1, (hagree c).2.2.1, (hagree c).2.2.2]
    exact ref_pred _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
